-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S1024x128 : Shape := ⟨2, ![1024, 128]⟩
abbrev S1024 : Shape := ⟨1, ![1024]⟩
abbrev S16x1024 : Shape := ⟨2, ![16, 1024]⟩
abbrev S64x16 : Shape := ⟨2, ![64, 16]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S4096x128 .f32) (main_arg1 : FVec F S1024x128 .f32) (main_arg2 : FVec F S1024 .f32) (main_arg3 : FVec F S16x1024 .f32) (main_arg4 : FVec F S64x16 .f32) (main_arg5 : IVec S1024 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S4096x128 : Shape := ⟨2, ![4096, 128]⟩
abbrev S1024x128 : Shape := ⟨2, ![1024, 128]⟩
abbrev S1024 : Shape := ⟨1, ![1024]⟩
abbrev S16x1024 : Shape := ⟨2, ![16, 1024]⟩
abbrev S64x16 : Shape := ⟨2, ![64, 16]⟩
abbrev S1024x1 : Shape := ⟨2, ![1024, 1]⟩
abbrev S1x64 : Shape := ⟨2, ![1, 64]⟩
abbrev S1024x64 : Shape := ⟨2, ![1024, 64]⟩
abbrev S1024x64x1 : Shape := ⟨3, ![1024, 64, 1]⟩
abbrev S1024x16 : Shape := ⟨2, ![1024, 16]⟩
abbrev S1024x1x16 : Shape := ⟨3, ![1024, 1, 16]⟩
abbrev S1024x64x16 : Shape := ⟨3, ![1024, 64, 16]⟩
abbrev S1024x1024 : Shape := ⟨2, ![1024, 1024]⟩
abbrev S1x1024 : Shape := ⟨2, ![1, 1024]⟩
abbrev S4096x1024 : Shape := ⟨2, ![4096, 1024]⟩
abbrev S1024x256 : Shape := ⟨2, ![1024, 256]⟩
abbrev S256x1024 : Shape := ⟨2, ![256, 1024]⟩
abbrev S4096x64x16 : Shape := ⟨3, ![4096, 64, 16]⟩

abbrev nBuf : Space → Nat
  | .hbm => 25
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S1024x128, .f32⟩
  | .hbm, ⟨2, _⟩ => ⟨S1024, .f32⟩
  | .hbm, ⟨3, _⟩ => ⟨S16x1024, .f32⟩
  | .hbm, ⟨4, _⟩ => ⟨S64x16, .f32⟩
  | .hbm, ⟨5, _⟩ => ⟨S1024, .i32⟩
  | .hbm, ⟨6, _⟩ => ⟨S1024x1, .i32⟩
  | .hbm, ⟨7, _⟩ => ⟨S1x64, .i32⟩
  | .hbm, ⟨8, _⟩ => ⟨S1024x64, .i32⟩
  | .hbm, ⟨9, _⟩ => ⟨S1024x64, .i32⟩
  | .hbm, ⟨10, _⟩ => ⟨S1024x64, .i1⟩
  | .hbm, ⟨11, _⟩ => ⟨S1024x64, .f32⟩
  | .hbm, ⟨12, _⟩ => ⟨S1024x64x1, .f32⟩
  | .hbm, ⟨13, _⟩ => ⟨S1024x16, .f32⟩
  | .hbm, ⟨14, _⟩ => ⟨S1024x1x16, .f32⟩
  | .hbm, ⟨15, _⟩ => ⟨S1024x64x16, .f32⟩
  | .hbm, ⟨16, _⟩ => ⟨S1024x64x16, .f32⟩
  | .hbm, ⟨17, _⟩ => ⟨S1024x64x16, .f32⟩
  | .hbm, ⟨18, _⟩ => ⟨S1024x1024, .f32⟩
  | .hbm, ⟨19, _⟩ => ⟨S1024x128, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x64x16, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S1024x64_S1024x64x1_0_1 : S1024x64.BroadcastsInDim S1024x64x1 (![0, 1] : Fin 2 → Fin S1024x64x1.rank)
  transposes_S16x1024_S1024x16_1_0 : S16x1024.Transposes [1, 0] S1024x16
  bcast_S1024x16_S1024x1x16_0_2 : S1024x16.BroadcastsInDim S1024x1x16 (![0, 2] : Fin 2 → Fin S1024x1x16.rank)
  bcast_S1024x64x1_S1024x64x16_0_1_2 : S1024x64x1.BroadcastsInDim S1024x64x16 (![0, 1, 2] : Fin 3 → Fin S1024x64x16.rank)
  bcast_S1024x1x16_S1024x64x16_0_1_2 : S1024x1x16.BroadcastsInDim S1024x64x16 (![0, 1, 2] : Fin 3 → Fin S1024x64x16.rank)
  shapeCasts_S1024x64x16_S1024x1024 : S1024x64x16.ShapeCasts S1024x1024
  bitsLt_bf16_f32 : FTy.bits .bf16 < FTy.bits .f32
  shapeCasts_S1024_S1x1024 : S1024.ShapeCasts S1x1024
  shapeCasts_S64x16_S1x1024 : S64x16.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S1024x1024_o0_0_S1024x256 : S1024x1024.Slices ![0, 0] S1024x256
  slices_S1024x1024_o0_0_S256x1024 : S1024x1024.Slices ![0, 0] S256x1024
  slices_S1024x1024_o0_256_S1024x256 : S1024x1024.Slices ![0, 256] S1024x256
  slices_S1024x1024_o256_0_S256x1024 : S1024x1024.Slices ![256, 0] S256x1024
  slices_S1024x1024_o0_512_S1024x256 : S1024x1024.Slices ![0, 512] S1024x256
  slices_S1024x1024_o512_0_S256x1024 : S1024x1024.Slices ![512, 0] S256x1024
  slices_S1024x1024_o0_768_S1024x256 : S1024x1024.Slices ![0, 768] S1024x256
  slices_S1024x1024_o768_0_S256x1024 : S1024x1024.Slices ![768, 0] S256x1024
  shapeCasts_S4096x1024_S4096x64x16 : S4096x1024.ShapeCasts S4096x64x16
  dot_S1024x128_S1024x128_S1024x1024_1_1_0_0_n_n_wf : DotDims.WF S1024x128 S1024x128 S1024x1024 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .f32 = 32 ∨ (Rect.block (s := S4096x1024) S1024x1024.size (cc0_transform_5 i) (hinb0_5 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S1024x128 : Shape := ⟨2, ![1024, 128]⟩
abbrev S1024 : Shape := ⟨1, ![1024]⟩
abbrev S16x1024 : Shape := ⟨2, ![16, 1024]⟩
abbrev S64x16 : Shape := ⟨2, ![64, 16]⟩
abbrev S128x1024 : Shape := ⟨2, ![128, 1024]⟩
abbrev S4096x1024 : Shape := ⟨2, ![4096, 1024]⟩
abbrev S1x1024 : Shape := ⟨2, ![1, 1024]⟩
abbrev S4096x256 : Shape := ⟨2, ![4096, 256]⟩
abbrev S_ : Shape := ⟨0, ![]⟩
abbrev S4096x1024x1 : Shape := ⟨3, ![4096, 1024, 1]⟩
abbrev S1024x16 : Shape := ⟨2, ![1024, 16]⟩
abbrev S1x1024x16 : Shape := ⟨3, ![1, 1024, 16]⟩
abbrev S4096x1024x16 : Shape := ⟨3, ![4096, 1024, 16]⟩
abbrev S1024x4096x16 : Shape := ⟨3, ![1024, 4096, 16]⟩
abbrev S64x4096x16 : Shape := ⟨3, ![64, 4096, 16]⟩
abbrev S1024x1 : Shape := ⟨2, ![1024, 1]⟩
abbrev S4096x64x16 : Shape := ⟨3, ![4096, 64, 16]⟩
abbrev S1x64x16 : Shape := ⟨3, ![1, 64, 16]⟩

abbrev nBuf : Space → Nat
  | .hbm => 43
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .f32⟩
  | .hbm, ⟨2, _⟩ => ⟨S1024, .f32⟩
  | .hbm, ⟨3, _⟩ => ⟨S16x1024, .f32⟩
  | .hbm, ⟨4, _⟩ => ⟨S64x16, .f32⟩
  | .hbm, ⟨5, _⟩ => ⟨S1024, .i32⟩
  | .hbm, ⟨6, _⟩ => ⟨S128x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096x256, .f32⟩
  | .hbm, ⟨26, _⟩ => ⟨S4096x256, .f32⟩
  | .hbm, ⟨27, _⟩ => ⟨S4096x1024, .f32⟩
  | .hbm, ⟨28, _⟩ => ⟨S4096x1024x1, .f32⟩
  | .hbm, ⟨29, _⟩ => ⟨S1024x16, .f32⟩
  | .hbm, ⟨30, _⟩ => ⟨S1x1024x16, .f32⟩
  | .hbm, ⟨31, _⟩ => ⟨S4096x1024x16, .f32⟩
  | .hbm, ⟨32, _⟩ => ⟨S4096x1024x16, .f32⟩
  | .hbm, ⟨33, _⟩ => ⟨S4096x1024x16, .f32⟩
  | .hbm, ⟨34, _⟩ => ⟨S1024x4096x16, .f32⟩
  | .hbm, ⟨35, _⟩ => ⟨S_, .f32⟩
  | .hbm, ⟨36, _⟩ => ⟨S64x4096x16, .f32⟩
  | .hbm, ⟨37, _⟩ => ⟨S1024x1, .i32⟩
  | .hbm, ⟨38, _⟩ => ⟨S64x4096x16, .f32⟩
  | .hbm, ⟨39, _⟩ => ⟨S4096x64x16, .f32⟩
  | .hbm, ⟨40, _⟩ => ⟨S1x64x16, .f32⟩
  | .hbm, ⟨41, _⟩ => ⟨S4096x64x16, .f32⟩
  | .hbm, ⟨42, _⟩ => ⟨S4096x64x16, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S1024x128_S128x1024_1_0 : S1024x128.Transposes [1, 0] S128x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S4096x1024_S4096x256_0_0 : S4096x1024.Slices ![0, 0] S4096x256
  slices_S4096x1024_S4096x256_0_256 : S4096x1024.Slices ![0, 256] S4096x256
  slices_S4096x1024_S4096x256_0_512 : S4096x1024.Slices ![0, 512] S4096x256
  slices_S4096x1024_S4096x256_0_768 : S4096x1024.Slices ![0, 768] S4096x256
  bcast_S_S4096x256 : S_.BroadcastsInDim S4096x256 (![] : Fin 0 → Fin S4096x256.rank)
  concatenates_S4096x256_S4096x256_S4096x256_S4096x256_S4096x1024_d1 : Shape.Concatenates [S4096x256, S4096x256, S4096x256, S4096x256] S4096x1024 1
  bcast_S4096x1024_S4096x1024x1_0_1 : S4096x1024.BroadcastsInDim S4096x1024x1 (![0, 1] : Fin 2 → Fin S4096x1024x1.rank)
  transposes_S16x1024_S1024x16_1_0 : S16x1024.Transposes [1, 0] S1024x16
  bcast_S1024x16_S1x1024x16_1_2 : S1024x16.BroadcastsInDim S1x1024x16 (![1, 2] : Fin 2 → Fin S1x1024x16.rank)
  bcast_S4096x1024x1_S4096x1024x16_0_1_2 : S4096x1024x1.BroadcastsInDim S4096x1024x16 (![0, 1, 2] : Fin 3 → Fin S4096x1024x16.rank)
  bcast_S1x1024x16_S4096x1024x16_0_1_2 : S1x1024x16.BroadcastsInDim S4096x1024x16 (![0, 1, 2] : Fin 3 → Fin S4096x1024x16.rank)
  transposes_S4096x1024x16_S1024x4096x16_1_0_2 : S4096x1024x16.Transposes [1, 0, 2] S1024x4096x16
  bcast_S_S64x4096x16 : S_.BroadcastsInDim S64x4096x16 (![] : Fin 0 → Fin S64x4096x16.rank)
  bcast_S1024_S1024x1_0 : S1024.BroadcastsInDim S1024x1 (![0] : Fin 1 → Fin S1024x1.rank)
  transposes_S64x4096x16_S4096x64x16_1_0_2 : S64x4096x16.Transposes [1, 0, 2] S4096x64x16
  bcast_S64x16_S1x64x16_1_2 : S64x16.BroadcastsInDim S1x64x16 (![1, 2] : Fin 2 → Fin S1x64x16.rank)
  bcast_S1x64x16_S4096x64x16_0_1_2 : S1x64x16.BroadcastsInDim S4096x64x16 (![0, 1, 2] : Fin 3 → Fin S4096x64x16.rank)
  dot_S4096x128_S128x1024_S4096x1024_1_0_0_1_n_n_wf : DotDims.WF S4096x128 S128x1024 S4096x1024 [1] [0] [0] [1] [] []
  scatter_S64x4096x16_S1024x1_S1024x4096x16_12_0_0_1_wf : ScatterDims.WF S64x4096x16 S1024x1 S1024x4096x16 [1, 2] [0] [0] 1

variable [Facts₀]

def dot_S4096x128_S128x1024_S4096x1024_1_0_0_1_n_n : DotDims S4096x128 S128x1024 S4096x1024 where
  lhsContracting := [1]
  rhsContracting := [0]
  lhsNonContracting := [0]
  rhsNonContracting := [1]
  lhsBatch := []
  rhsBatch := []
  wf := dot_S4096x128_S128x1024_S4096x1024_1_0_0_1_n_n_wf
def scatter_S64x4096x16_S1024x1_S1024x4096x16_12_0_0_1 : ScatterDims S64x4096x16 S1024x1 S1024x4096x16 where
  updateWindowDims := [1, 2]
  insertedWindowDims := [0]
  scatterDimsToOperandDims := [0]
  indexVectorDim := 1
  wf := scatter_S64x4096x16_S1024x1_S1024x4096x16_12_0_0_1_wf

class Facts : Prop extends Facts₀ where

variable [Facts]
-- ==== Proof.Spec.lean ====
/-
  The mathematics both programs compute, as one function of the six argument arrays.

  With x : [4096,128], hw : [1024,128], hb : [1024], ow : [16,1024], ob : [64,16] and ids : [1024]
  (32-bit words), put for a batch row b and a hidden unit n

      hid b n = (sum over k < 128 of x[b,k] * hw[n,k]) + hb[n]
      act n v = max v 0 (n < 256),  tanh v (256 <= n < 512),  1/(1+e^(-v)) (512 <= n < 768),  v (768 <= n)

  and the result at (b, g, o), g < 64 a group and o < 16 an output feature,

      G[b,g,o] = (sum over the hidden units n whose id word, read signed, is g of act n (hid b n) * ow[o,n]) + ob[g,o].

  A hidden unit whose id is outside [0, 64) belongs to no group and contributes nowhere.

  Also here: the little algebra that joins the two arrangements of that sum. One program multiplies every term
  by the indicator "id of n equals g" (a word compare widened to 1 or 0) and sums the four quarters of the hidden
  axis one after the other; the other sums only the units whose id is g. On the extended reals 1 * y = y,
  0 * y = 0 and a * 0 = 0 hold for every y and a, infinite ones included, and addition is commutative and
  associative, so no finiteness is needed anywhere.
-/
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx
open scoped BigOperators

/-- The hidden layer before its activation: row b of x against row n of hw, plus the bias of unit n. -/
def hid (x : FVec Ideal ⟨2, ![4096, 128]⟩ .f32) (hw : FVec Ideal ⟨2, ![1024, 128]⟩ .f32) (hb : FVec Ideal ⟨1, ![1024]⟩ .f32)
    (b : Fin 4096) (n : Fin 1024) : EReal :=
  (∑ k : Fin 128, x (ix2 b k) * hw (ix2 n k)) + hb (ix1 n)

/-- The activation of hidden unit n: the hidden axis is cut into four quarters of 256 units, activated by the
    positive part, the hyperbolic tangent, the logistic function and the identity. -/
def act (n : ℕ) (v : EReal) : EReal :=
  if n < 256 then max v 0 else if n < 512 then Ideal.tanh v else if n < 768 then Ideal.logistic v else v

/-- The activated hidden layer. -/
def hact (x : FVec Ideal ⟨2, ![4096, 128]⟩ .f32) (hw : FVec Ideal ⟨2, ![1024, 128]⟩ .f32) (hb : FVec Ideal ⟨1, ![1024]⟩ .f32)
    (b : Fin 4096) (n : Fin 1024) : EReal :=
  act n.val (hid x hw hb b n)

/-- The result: per batch row, group and output feature, the group's hidden units' activations against their
    output weights, plus the group's bias. -/
def G (x : FVec Ideal ⟨2, ![4096, 128]⟩ .f32) (hw : FVec Ideal ⟨2, ![1024, 128]⟩ .f32) (hb : FVec Ideal ⟨1, ![1024]⟩ .f32)
    (ow : FVec Ideal ⟨2, ![16, 1024]⟩ .f32) (ob : FVec Ideal ⟨2, ![64, 16]⟩ .f32) (ids : IVec ⟨1, ![1024]⟩ 32) :
    FVec Ideal ⟨3, ![4096, 64, 16]⟩ .f32 := fun i =>
  (∑ n : Fin 1024, if (ids (ix1 n)).toInt = ((i 1).val : ℤ) then hact x hw hb (i 0) n * ow (ix2 (i 2) n) else 0)
    + ob (ix2 (i 1) (i 2))

/-! ## The activation on each quarter -/

theorem act_q0 (k : Fin 256) (v : EReal) : act k.val v = max v 0 := by
  unfold act; rw [if_pos k.isLt]
theorem act_q1 (k : Fin 256) (v : EReal) : act (256 + k.val) v = Ideal.tanh v := by
  unfold act; have := k.isLt; rw [if_neg (by omega), if_pos (by omega)]
theorem act_q2 (k : Fin 256) (v : EReal) : act (512 + k.val) v = Ideal.logistic v := by
  unfold act; have := k.isLt; rw [if_neg (by omega), if_neg (by omega), if_pos (by omega)]
theorem act_q3 (k : Fin 256) (v : EReal) : act (768 + k.val) v = v := by
  unfold act; have := k.isLt; rw [if_neg (by omega), if_neg (by omega), if_neg (by omega)]

/-! ## A sum over the 1024 hidden units is the sum of its four quarters -/

theorem sum_quarters {M : Type*} [AddCommMonoid M] (f : Fin 1024 → M) :
    ∑ n, f n = (((∑ k : Fin 256, f ⟨k.val, by have := k.isLt; omega⟩)
        + ∑ k : Fin 256, f ⟨256 + k.val, by have := k.isLt; omega⟩)
        + ∑ k : Fin 256, f ⟨512 + k.val, by have := k.isLt; omega⟩)
        + ∑ k : Fin 256, f ⟨768 + k.val, by have := k.isLt; omega⟩ := by
  have e1 : ∑ n : Fin (768 + 256), f n = _ := Fin.sum_univ_add (a := 768) (b := 256) f
  have e2 : ∑ n : Fin (512 + 256), f (Fin.castAdd 256 n) = _ :=
    Fin.sum_univ_add (a := 512) (b := 256) fun n => f (Fin.castAdd 256 n)
  have e3 : ∑ n : Fin (256 + 256), f (Fin.castAdd 256 (Fin.castAdd 256 n)) = _ :=
    Fin.sum_univ_add (a := 256) (b := 256) fun n => f (Fin.castAdd 256 (Fin.castAdd 256 n))
  exact e1.trans (by rw [e2, e3]; rfl)

/-! ## The indicator of a group, as the widened word compare -/

/-- The compare of an id word against the word of a group number g < 64, widened to a real: times y it is y
    when the id, read signed, is g, and 0 when it is not. -/
theorem onehot_mul (w : BitVec 32) (g : ℕ) (hg : g < 64) (y : EReal) :
    (((IntOp.cmpi .eq w (BitVec.ofNat 32 g)).toNat : ℝ) : EReal) * y = if w.toInt = (g : ℤ) then y else 0 := by
  have hto : (BitVec.ofNat 32 g).toInt = (g : ℤ) := by
    rw [BitVec.toInt_eq_toNat_cond, BitVec.toNat_ofNat]
    have : g % 2 ^ 32 = g := Nat.mod_eq_of_lt (by omega)
    rw [this]
    split <;> omega
  have hiff : w = BitVec.ofNat 32 g ↔ w.toInt = (g : ℤ) :=
    ⟨fun e => e ▸ hto, fun h => BitVec.eq_of_toInt_eq (h.trans hto.symm)⟩
  by_cases h : w = BitVec.ofNat 32 g
  · rw [if_pos (hiff.mp h)]
    subst h
    simp [IntOp.cmpi]
  · rw [if_neg (fun e => h (hiff.mpr e))]
    simp [IntOp.cmpi, h]

/-! ## The two float literals -/

theorem one_f32 : Ideal.ofBits .f32 0x3F800000#32 = 1 := by
  simp [Ideal.ofBits, Ideal.ieee]
  rw [← EReal.coe_mul]
  norm_num

/-- The logistic function spelt with a negation, an exponential, a sum and a quotient is the one operation. -/
theorem logistic_spelt (v : EReal) : Ideal.div 1 (1 + Ideal.exp (-v)) = Ideal.logistic v := rfl

end Cert.Spec

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.LibContractRows.lean ====
/-
  A product of two matrices that share their SECOND axis, read at an index over the extended reals: an [M, K]
  matrix against an [N, K] matrix, contracting axis 1 of both (rows against rows, "x times the transpose of w"
  without the transpose being made), accumulated into zeros. Entry (r, j) is the sum over k of lhs (r, k) * rhs (j, k).
-/
import Idealize.ShloMosaic.PureOps.Ideal.Laws
import Idealize.ShloMosaic.Lib.ValueIdx

noncomputable section

namespace Cert.LibContractRows

open Idealize.ShloMosaic Idealize.ShloMosaic.ValueIdx
open scoped BigOperators

/-- The dimension numbers `[1] × [1]`, kept axes `[0]` and `[0]`, no batch axes, over any proof that they are
    well formed. -/
private abbrev lit {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ :=
  ⟨[1], [1], [0], [0], [], [], wf⟩

section Axes
variable {M K N : ℕ} (wf : DotDims.WF ⟨2, ![M, K]⟩ ⟨2, ![N, K]⟩ ⟨2, ![M, N]⟩ [1] [1] [0] [0] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's kept axis reads the result's column. -/
private theorem rhs_0 (i : (⟨2, ![M, N]⟩ : Shape).Idx) (q : (lit wf).contr.Idx) :
    ((lit wf).rhsIdx i q 0).val = (i 1).val := by
  unfold DotDims.rhsIdx
  rw [dif_neg (show ¬(0 : Fin (⟨2, ![N, K]⟩ : Shape).rank) ∈ (lit wf).rhsBatch from List.not_mem_nil),
    dif_pos (show (0 : Fin (⟨2, ![N, K]⟩ : Shape).rank) ∈ (lit wf).rhsNonContracting from List.mem_singleton.mpr rfl)]
  rfl

/-- The right operand's contracted axis reads the contraction position. -/
private theorem rhs_1 (i : (⟨2, ![M, N]⟩ : Shape).Idx) (q : (lit wf).contr.Idx) :
    ((lit wf).rhsIdx i q 1).val = (q ⟨0, Nat.one_pos⟩).val :=
  (lit wf).rhsIdx_val_of_single rfl i q

/-- The contraction's sum over its one-axis index set is the sum over `Fin K`, the operands read at (r, k) and
    (j, k): re-index through the bijection of the one-axis index set with `Fin K`, then compare the operand
    indices axis by axis. -/
private theorem contr_lit {φ₁ φ₂ : FTy} (lhs : FVec Ideal ⟨2, ![M, K]⟩ φ₁) (rhs : FVec Ideal ⟨2, ![N, K]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 j k) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 j k :=
    funext fun a => Fin.ext (by
      match a with
      | ⟨0, _⟩ => exact rhs_0 wf _ _
      | ⟨1, _⟩ => exact (rhs_1 wf _ _).trans hk)
  rw [el, er]

end Axes

/-- The product of an [M, K] matrix with an [N, K] matrix along their shared axis 1 (no batch axes), accumulated
    into zeros and read at (r, j): `∑ k, lhs (r, k) · rhs (j, k)`, for any dimension numbers whose six lists are those. -/
theorem matmul_rows {M K N : ℕ} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (j : Fin N) :
    matmul d prec lhs rhs (constant ⟨2, ![M, N]⟩ .f32 0x00000000#32) (ix2 r j)
      = ∑ k : Fin K, lhs (ix2 r k) * rhs (ix2 j k) := by
  simp only [matmul]
  rw [Ideal.matmul_constant_zero_apply]
  obtain ⟨lc, rc, ln, rn, lb, rb, wf⟩ := d
  simp only at hlc hrc hln hrn hlb hrb
  subst hlc hrc hln hrn hlb hrb
  exact contr_lit wf lhs rhs r j

end Cert.LibContractRows

end
-- ==== Proof.Body.lean ====
/-
  What one grid point's body stores, entry by entry.

  The body holds a [1024,128] block x0 of x, the whole [1024,128] table x1 of hidden weights, the hidden bias as a
  [1,1024] row x2, the whole [1024,1024] block-diagonal table x3 and the output bias as a [1,1024] row x4. It forms
  the pre-activations  p[r,n] = (sum over k of x0[r,k] * x1[n,k]) + x2[0,n],  activates the four quarters of the
  hidden axis (positive part, tanh, logistic, identity), multiplies each activated quarter with the matching 256
  rows of x3, adds the four products one after the other into zeros, and adds the row x4. Read at (r, j):

      (sum over n < 1024 of act n (p[r,n]) * x3[n,j]) + x4[0,j]

  the four quarter sums joined by `Spec.sum_quarters`; a change of float format is the identity on extended reals.
-/
import proofs.«424883_j50242527429454_2_alg».proof.Proof.Gen.KernelIdeal.Skeleton
import proofs.«424883_j50242527429454_2_alg».proof.Proof.Spec
import proofs.«424883_j50242527429454_2_alg».proof.Proof.LibContract
import proofs.«424883_j50242527429454_2_alg».proof.Proof.LibContractRows
import Idealize.ShloMosaic.Lib.Pipeline.Value

noncomputable section

namespace Cert.KernelBody

open Idealize.ShloMosaic Idealize.ShloMosaic.ValueIdx Cert.KernelIdeal Cert.KernelIdeal.Gen
open scoped BigOperators

variable {α : Type}

/-! ## The layout operations of the body, read at an index -/

/-- The [1,1024] row broadcast down 1024 rows reads the row at the column. -/
theorem bcast_row (v : S1x1024.Idx → α) (h : S1x1024.Broadcasts S1024x1024) (r j : Fin 1024) :
    broadcastTo S1024x1024 v h (ix2 r j) = v (ix2 (0 : Fin 1) j) :=
  broadcastTo_apply v h (ix2 r j) (ix2 (0 : Fin 1) j) fun a => match a with
    | ⟨0, _⟩ => rfl
    | ⟨1, _⟩ => rfl

/-- A 256-column slice of a [1024,1024] block, starting at column o. -/
theorem slice_cols (o : ℕ) (ho : o + 256 ≤ 1024) (v : S1024x1024.Idx → α) (h : S1024x1024.Slices ![0, o] S1024x256)
    (r : Fin 1024) (k : Fin 256) :
    extractStridedSlice S1024x256 ![0, o] v h (ix2 r k) = v (ix2 r ⟨o + k.val, by have := k.isLt; omega⟩) :=
  extractStridedSlice_apply ![0, o] v h (ix2 r k) (ix2 r ⟨o + k.val, by have := k.isLt; omega⟩) fun a => match a with
    | ⟨0, _⟩ => by show r.val = 0 + r.val; omega
    | ⟨1, _⟩ => rfl

/-- A 256-row slice of a [1024,1024] block, starting at row o. -/
theorem slice_rows (o : ℕ) (ho : o + 256 ≤ 1024) (v : S1024x1024.Idx → α) (h : S1024x1024.Slices ![o, 0] S256x1024)
    (k : Fin 256) (j : Fin 1024) :
    extractStridedSlice S256x1024 ![o, 0] v h (ix2 k j) = v (ix2 ⟨o + k.val, by have := k.isLt; omega⟩ j) :=
  extractStridedSlice_apply ![o, 0] v h (ix2 k j) (ix2 ⟨o + k.val, by have := k.isLt; omega⟩ j) fun a => match a with
    | ⟨0, _⟩ => rfl
    | ⟨1, _⟩ => by show j.val = 0 + j.val; omega

/-! ## The pre-activations -/

section Pre
variable (x0 : FVec Ideal S1024x128 .f32) (x1 : FVec Ideal S1024x128 .bf16) (x2 : FVec Ideal S1x1024 .f32)

/-- The block of pre-activations the body forms: rows of x0 against rows of x1, plus the bias row. -/
def pre : FVec Ideal S1024x1024 .f32 :=
  addf (matmul dot_S1024x128_S1024x128_S1024x1024_1_1_0_0_n_n none (truncf .bf16 x0 bitsLt_bf16_f32)
      (shapeCast S1024x128 x1 shapeCasts_S1024x128_S1024x128) (constant S1024x1024 .f32 0x00000000#32))
    (broadcastTo S1024x1024 (shapeCast S1x1024 x2 shapeCasts_S1x1024_S1x1024) broadcasts_S1x1024_S1024x1024)

theorem pre_apply (r n : Fin 1024) :
    pre x0 x1 x2 (ix2 r n) = (∑ k : Fin 128, x0 (ix2 r k) * x1 (ix2 n k)) + x2 (ix2 (0 : Fin 1) n) := by
  unfold pre
  rw [addf_apply, LibContractRows.matmul_rows _ rfl rfl rfl rfl rfl rfl none _ _ r n, bcast_row, shapeCast_self,
    shapeCast_self]
  rfl

end Pre

/-! ## One quarter's product -/

/-- An activated quarter a : [1024,256] against rows o … o+255 of the table x3, into zeros, at (r, j). -/
theorem quarter (x3 : FVec Ideal S1024x1024 .bf16) (a : FVec Ideal S1024x256 .f32) (o : ℕ) (ho : o + 256 ≤ 1024)
    (h : S1024x1024.Slices ![o, 0] S256x1024) (r j : Fin 1024) :
    matmul dot_S1024x256_S256x1024_S1024x1024_1_0_0_1_n_n none (truncf .bf16 a bitsLt_bf16_f32)
        (extractStridedSlice S256x1024 ![o, 0] (shapeCast S1024x1024 x3 shapeCasts_S1024x1024_S1024x1024) h)
        (constant S1024x1024 .f32 0x00000000#32) (ix2 r j)
      = ∑ k : Fin 256, a (ix2 r k) * x3 (ix2 ⟨o + k.val, by have := k.isLt; omega⟩ j) := by
  rw [LibContract.matmul_plain _ rfl rfl rfl rfl rfl rfl none _ _ r j]
  refine Finset.sum_congr rfl fun k _ => ?_
  rw [slice_rows o ho _ h k j, shapeCast_self]
  rfl

/-! ## The four quarters, and the stored value -/

section Pay
variable (x0 : FVec Ideal S1024x128 .f32) (x1 : FVec Ideal S1024x128 .bf16) (x2 : FVec Ideal S1x1024 .f32)
  (x3 : FVec Ideal S1024x1024 .bf16) (x4 : FVec Ideal S1x1024 .f32)

/-- Quarter 0: the positive part of pre-activation columns 0 … 255 against rows 0 … 255 of the table. -/
def q0 : FVec Ideal S1024x1024 .f32 :=
  matmul dot_S1024x256_S256x1024_S1024x1024_1_0_0_1_n_n none
    (truncf .bf16 (maximumf (extractStridedSlice S1024x256 ![0, 0] (pre x0 x1 x2) slices_S1024x1024_o0_0_S1024x256)
      (broadcast S1024x256 (Scalar.ofBits .f32 0x00000000#32))) bitsLt_bf16_f32)
    (extractStridedSlice S256x1024 ![0, 0] (shapeCast S1024x1024 x3 shapeCasts_S1024x1024_S1024x1024) slices_S1024x1024_o0_0_S256x1024)
    (constant S1024x1024 .f32 0x00000000#32)
/-- Quarter 1: the hyperbolic tangent of columns 256 … 511 against rows 256 … 511. -/
def q1 : FVec Ideal S1024x1024 .f32 :=
  matmul dot_S1024x256_S256x1024_S1024x1024_1_0_0_1_n_n none
    (truncf .bf16 (tanh (extractStridedSlice S1024x256 ![0, 256] (pre x0 x1 x2) slices_S1024x1024_o0_256_S1024x256)) bitsLt_bf16_f32)
    (extractStridedSlice S256x1024 ![256, 0] (shapeCast S1024x1024 x3 shapeCasts_S1024x1024_S1024x1024) slices_S1024x1024_o256_0_S256x1024)
    (constant S1024x1024 .f32 0x00000000#32)
/-- Quarter 2: the logistic function of columns 512 … 767 against rows 512 … 767. -/
def q2 : FVec Ideal S1024x1024 .f32 :=
  matmul dot_S1024x256_S256x1024_S1024x1024_1_0_0_1_n_n none
    (truncf .bf16 (logistic (extractStridedSlice S1024x256 ![0, 512] (pre x0 x1 x2) slices_S1024x1024_o0_512_S1024x256)) bitsLt_bf16_f32)
    (extractStridedSlice S256x1024 ![512, 0] (shapeCast S1024x1024 x3 shapeCasts_S1024x1024_S1024x1024) slices_S1024x1024_o512_0_S256x1024)
    (constant S1024x1024 .f32 0x00000000#32)
/-- Quarter 3: columns 768 … 1023 as they are against rows 768 … 1023. -/
def q3 : FVec Ideal S1024x1024 .f32 :=
  matmul dot_S1024x256_S256x1024_S1024x1024_1_0_0_1_n_n none
    (truncf .bf16 (extractStridedSlice S1024x256 ![0, 768] (pre x0 x1 x2) slices_S1024x1024_o0_768_S1024x256) bitsLt_bf16_f32)
    (extractStridedSlice S256x1024 ![768, 0] (shapeCast S1024x1024 x3 shapeCasts_S1024x1024_S1024x1024) slices_S1024x1024_o768_0_S256x1024)
    (constant S1024x1024 .f32 0x00000000#32)

/-- The stored value is zeros plus the four quarters in turn plus the bias row. -/
theorem pay_eq : k0_pay1 (F := Ideal) x0 x1 x2 x3 x4
    = addf (addf (addf (addf (addf (broadcast S1024x1024 (Scalar.ofBits .f32 0x00000000#32)) (q0 x0 x1 x2 x3)) (q1 x0 x1 x2 x3))
        (q2 x0 x1 x2 x3)) (q3 x0 x1 x2 x3))
      (broadcastTo S1024x1024 (shapeCast S1x1024 x4 shapeCasts_S1x1024_S1x1024) broadcasts_S1x1024_S1024x1024) := rfl

theorem zero_word : (Scalar.ofBits .f32 0x00000000#32 : Ideal .f32) = 0 := Ideal.ofBits_zero_f32

theorem q0_apply (r j : Fin 1024) : q0 x0 x1 x2 x3 (ix2 r j)
    = ∑ k : Fin 256, Spec.act k.val (pre x0 x1 x2 (ix2 r ⟨k.val, by have := k.isLt; omega⟩))
        * x3 (ix2 ⟨k.val, by have := k.isLt; omega⟩ j) := by
  unfold q0
  rw [quarter x3 _ 0 (by omega) _ r j]
  refine Finset.sum_congr rfl fun k _ => ?_
  have e : (⟨0 + k.val, by have := k.isLt; omega⟩ : Fin 1024) = ⟨k.val, by have := k.isLt; omega⟩ := Fin.ext (Nat.zero_add _)
  rw [maximumf_apply, slice_cols 0 (by omega) _ _ r k, broadcast_apply, zero_word, Spec.act_q0, e]

theorem q1_apply (r j : Fin 1024) : q1 x0 x1 x2 x3 (ix2 r j)
    = ∑ k : Fin 256, Spec.act (256 + k.val) (pre x0 x1 x2 (ix2 r ⟨256 + k.val, by have := k.isLt; omega⟩))
        * x3 (ix2 ⟨256 + k.val, by have := k.isLt; omega⟩ j) := by
  unfold q1
  rw [quarter x3 _ 256 (by omega) _ r j]
  refine Finset.sum_congr rfl fun k _ => ?_
  rw [Spec.act_q1]
  show Ideal.tanh (extractStridedSlice S1024x256 ![0, 256] (pre x0 x1 x2) slices_S1024x1024_o0_256_S1024x256 (ix2 r k)) * _ = _
  rw [slice_cols 256 (by omega) _ _ r k]

theorem q2_apply (r j : Fin 1024) : q2 x0 x1 x2 x3 (ix2 r j)
    = ∑ k : Fin 256, Spec.act (512 + k.val) (pre x0 x1 x2 (ix2 r ⟨512 + k.val, by have := k.isLt; omega⟩))
        * x3 (ix2 ⟨512 + k.val, by have := k.isLt; omega⟩ j) := by
  unfold q2
  rw [quarter x3 _ 512 (by omega) _ r j]
  refine Finset.sum_congr rfl fun k _ => ?_
  rw [Spec.act_q2]
  show Ideal.logistic (extractStridedSlice S1024x256 ![0, 512] (pre x0 x1 x2) slices_S1024x1024_o0_512_S1024x256 (ix2 r k)) * _ = _
  rw [slice_cols 512 (by omega) _ _ r k]

theorem q3_apply (r j : Fin 1024) : q3 x0 x1 x2 x3 (ix2 r j)
    = ∑ k : Fin 256, Spec.act (768 + k.val) (pre x0 x1 x2 (ix2 r ⟨768 + k.val, by have := k.isLt; omega⟩))
        * x3 (ix2 ⟨768 + k.val, by have := k.isLt; omega⟩ j) := by
  unfold q3
  rw [quarter x3 _ 768 (by omega) _ r j]
  refine Finset.sum_congr rfl fun k _ => ?_
  rw [Spec.act_q3, slice_cols 768 (by omega) _ _ r k]

/-- THE STORED VALUE at (r, j): every hidden unit's activated pre-activation against its row of the table, plus
    the bias row's entry. -/
theorem pay_apply (r j : Fin 1024) :
    k0_pay1 (F := Ideal) x0 x1 x2 x3 x4 (ix2 r j)
      = (∑ n : Fin 1024, Spec.act n.val ((∑ k : Fin 128, x0 (ix2 r k) * x1 (ix2 n k)) + x2 (ix2 (0 : Fin 1) n)) * x3 (ix2 n j))
        + x4 (ix2 (0 : Fin 1) j) := by
  have hp : ∀ n : Fin 1024, (∑ k : Fin 128, x0 (ix2 r k) * x1 (ix2 n k)) + x2 (ix2 (0 : Fin 1) n) = pre x0 x1 x2 (ix2 r n) :=
    fun n => (pre_apply x0 x1 x2 r n).symm
  simp only [hp]
  rw [Spec.sum_quarters, pay_eq, addf_apply, addf_apply, addf_apply, addf_apply, addf_apply, broadcast_apply, zero_word, zero_add,
    q0_apply, q1_apply, q2_apply, q3_apply, bcast_row, shapeCast_self]

end Pay

end Cert.KernelBody

end
-- ==== Proof.Tables.lean ====
/-
  The arrays the call's windows stage, as the host lines before the call leave them, entry by entry.

  * the hidden weights, narrowed: on extended reals the same table;
  * the hidden bias reshaped to a [1,1024] row: entry (0, n) is hb[n];
  * the output bias [64,16] reshaped to a [1,1024] row: entry (0, j) is ob[j / 16, j % 16];
  * the block-diagonal table [1024,1024]: the [1024,64] one-hot table of the id words (row n has a 1 at column g
    exactly when the word ids[n] equals the word of g, else 0) times the transposed output weights, laid out
    [1024,64,16] and reshaped, so entry (n, j) is  onehot[n, j / 16] * ow[j % 16, n].
-/
import proofs.«424883_j50242527429454_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.IdealHost

noncomputable section

namespace Cert.KernelTables

open Idealize.ShloMosaic Idealize.ShloMosaic.TcCoe Idealize.ShloMosaic.ValueIdx Idealize.SL.Sem
open Cert.KernelIdeal Cert.KernelIdeal.Gen Idealize.ShloMosaic.StableHlo

/-! ## The tables as functions of the arguments -/

/-- The one-hot table of the id words against the group numbers 0 … 63, as 1.0 and 0.0. -/
def onehot (ids : IVec S1024 32) : FVec Ideal S1024x64 .f32 :=
  uitofp .f32 (cmpi .eq
    (broadcastInDim S1024x64 ![0, 1] bcast_S1024x1_S1024x64_0_1 (broadcastInDim S1024x1 ![0] bcast_S1024_S1024x1_0 ids))
    (broadcastInDim S1024x64 ![0, 1] bcast_S1x64_S1024x64_0_1 (iotaInDim S1x64 32 1)))

theorem onehot_apply (ids : IVec S1024 32) (n : Fin 1024) (g : Fin 64) :
    onehot ids (ix2 n g) = (((IntOp.cmpi .eq (ids (ix1 n)) (BitVec.ofNat 32 g.val)).toNat : ℝ) : EReal) := by
  unfold onehot
  show (((IntOp.cmpi .eq
      (broadcastInDim S1024x64 ![0, 1] bcast_S1024x1_S1024x64_0_1 (broadcastInDim S1024x1 ![0] bcast_S1024_S1024x1_0 ids) (ix2 n g))
      (broadcastInDim S1024x64 ![0, 1] bcast_S1x64_S1024x64_0_1 (iotaInDim S1x64 32 1) (ix2 n g))).toNat : ℝ) : EReal) = _
  rw [broadcastInDim_apply _ bcast_S1024x1_S1024x64_0_1 _ (ix2 n g) (ix2 n (0 : Fin 1)) (fun a => match a with
      | ⟨0, _⟩ => rfl
      | ⟨1, _⟩ => rfl),
    broadcastInDim_apply _ bcast_S1024_S1024x1_0 ids (ix2 n (0 : Fin 1)) (ix1 n) (fun a => match a with
      | ⟨0, _⟩ => rfl),
    broadcastInDim_apply _ bcast_S1x64_S1024x64_0_1 _ (ix2 n g) (ix2 (0 : Fin 1) g) (fun a => match a with
      | ⟨0, _⟩ => rfl
      | ⟨1, _⟩ => rfl)]
  rfl

/-- The block-diagonal table: one-hot entry times transposed output weight, [1024,64,16] read as [1024,1024]. -/
def wbd (ids : IVec S1024 32) (ow : FVec Ideal S16x1024 .f32) : FVec Ideal S1024x1024 .f32 :=
  shapeCast S1024x1024
    (mulf
      (broadcastInDim S1024x64x16 ![0, 1, 2] bcast_S1024x64x1_S1024x64x16_0_1_2
        (broadcastInDim S1024x64x1 ![0, 1] bcast_S1024x64_S1024x64x1_0_1 (onehot ids)))
      (broadcastInDim S1024x64x16 ![0, 1, 2] bcast_S1024x1x16_S1024x64x16_0_1_2
        (broadcastInDim S1024x1x16 ![0, 2] bcast_S1024x16_S1024x1x16_0_2
          (transpose S1024x16 [1, 0] ow transposes_S16x1024_S1024x16_1_0))))
    shapeCasts_S1024x64x16_S1024x1024

theorem wbd_apply (ids : IVec S1024 32) (ow : FVec Ideal S16x1024 .f32) (n j : Fin 1024) :
    wbd ids ow (ix2 n j)
      = (((IntOp.cmpi .eq (ids (ix1 n)) (BitVec.ofNat 32 (j.val / 16))).toNat : ℝ) : EReal)
        * ow (ix2 ⟨j.val % 16, Nat.mod_lt _ (by omega)⟩ n) := by
  have hg : j.val / 16 < 64 := by have := j.isLt; omega
  have ho : j.val % 16 < 16 := Nat.mod_lt _ (by omega)
  unfold wbd
  rw [shapeCast_apply _ shapeCasts_S1024x64x16_S1024x1024 (ix2 n j) (ix3 n ⟨j.val / 16, hg⟩ ⟨j.val % 16, ho⟩) (by
      rw [Shape.rowMajor_val_three, Shape.rowMajor_val_two]
      show (n.val * 64 + j.val / 16) * 16 + j.val % 16 = n.val * 1024 + j.val
      omega),
    mulf_apply,
    broadcastInDim_apply _ bcast_S1024x64x1_S1024x64x16_0_1_2 _ _ (ix3 n ⟨j.val / 16, hg⟩ (0 : Fin 1)) (fun a => match a with
      | ⟨0, _⟩ => rfl
      | ⟨1, _⟩ => rfl
      | ⟨2, _⟩ => rfl),
    broadcastInDim_apply _ bcast_S1024x64_S1024x64x1_0_1 _ _ (ix2 n ⟨j.val / 16, hg⟩) (fun a => match a with
      | ⟨0, _⟩ => rfl
      | ⟨1, _⟩ => rfl),
    broadcastInDim_apply _ bcast_S1024x1x16_S1024x64x16_0_1_2 _ _ (ix3 n (0 : Fin 1) ⟨j.val % 16, ho⟩) (fun a => match a with
      | ⟨0, _⟩ => rfl
      | ⟨1, _⟩ => rfl
      | ⟨2, _⟩ => rfl),
    broadcastInDim_apply _ bcast_S1024x16_S1024x1x16_0_2 _ _ (ix2 n ⟨j.val % 16, ho⟩) (fun a => match a with
      | ⟨0, _⟩ => rfl
      | ⟨1, _⟩ => rfl),
    transpose_apply [1, 0] ow transposes_S16x1024_S1024x16_1_0 (ix2 n ⟨j.val % 16, ho⟩) (ix2 ⟨j.val % 16, ho⟩ n) (fun b => match b with
      | ⟨0, _⟩ => rfl
      | ⟨1, _⟩ => rfl),
    onehot_apply]

/-- The hidden bias as a row. -/
theorem row_hb (hb : FVec Ideal S1024 .f32) (n : Fin 1024) :
    shapeCast S1x1024 hb shapeCasts_S1024_S1x1024 (ix2 (0 : Fin 1) n) = hb (ix1 n) :=
  shapeCast_apply _ shapeCasts_S1024_S1x1024 (ix2 (0 : Fin 1) n) (ix1 n) (by
    rw [Shape.rowMajor_val_one, Shape.rowMajor_val_two]
    show n.val = 0 * 1024 + n.val
    omega)

/-- The output bias as a row. -/
theorem row_ob (ob : FVec Ideal S64x16 .f32) (j : Fin 1024) :
    shapeCast S1x1024 ob shapeCasts_S64x16_S1x1024 (ix2 (0 : Fin 1) j)
      = ob (ix2 ⟨j.val / 16, by have := j.isLt; omega⟩ ⟨j.val % 16, Nat.mod_lt _ (by omega)⟩) :=
  shapeCast_apply _ shapeCasts_S64x16_S1x1024 (ix2 (0 : Fin 1) j) _ (by
    rw [Shape.rowMajor_val_two, Shape.rowMajor_val_two]
    show j.val / 16 * 16 + j.val % 16 = 0 * 1024 + j.val
    omega)

/-! ## The region-entry arrays are those tables of the arguments -/

variable (m : (ℓ : Loc nD τ sig) → Buf (Elt Ideal) ℓ)

theorem V_hw (c : Dev nD) :
    (V m c main_v8 : S1024x128.Idx → EReal)
      = (truncf .bf16 (m ((c : Thread nD τ).loc main_arg1) : FVec Ideal S1024x128 .f32) bitsLt_bf16_f32 : FVec Ideal S1024x128 .bf16) := by
  dsimp only [V, V0]
  simp only [hostOps0, hostOps0_1, List.flatten_cons, List.flatten_nil, List.append_nil, List.cons_append, List.nil_append]
  after_results

theorem V_hb (c : Dev nD) :
    (V m c main_v10 : S1x1024.Idx → EReal) = shapeCast S1x1024 (m ((c : Thread nD τ).loc main_arg2)) shapeCasts_S1024_S1x1024 := by
  dsimp only [V, V0]
  simp only [hostOps0, hostOps0_1, List.flatten_cons, List.flatten_nil, List.append_nil, List.cons_append, List.nil_append]
  after_results
  rfl

theorem V_ob (c : Dev nD) :
    (V m c main_v11 : S1x1024.Idx → EReal) = shapeCast S1x1024 (m ((c : Thread nD τ).loc main_arg4)) shapeCasts_S64x16_S1x1024 := by
  dsimp only [V, V0]
  simp only [hostOps0, hostOps0_1, List.flatten_cons, List.flatten_nil, List.append_nil, List.cons_append, List.nil_append]
  after_results
  rfl

theorem V_wbd (c : Dev nD) :
    (V m c main_v9 : S1024x1024.Idx → EReal)
      = (truncf .bf16 (wbd (m ((c : Thread nD τ).loc main_arg5)) (m ((c : Thread nD τ).loc main_arg3))) bitsLt_bf16_f32 : FVec Ideal S1024x1024 .bf16) := by
  dsimp only [V, V0]
  simp only [hostOps0, hostOps0_1, List.flatten_cons, List.flatten_nil, List.append_nil, List.cons_append, List.nil_append]
  after_results
  rfl

end Cert.KernelTables

end
-- ==== Proof.KernelValue.lean ====
/-
  The kernel's result as a function of the arguments.

  The call runs four grid points; point t stages rows 1024 t … 1024 t + 1023 of x and the four resident tables whole,
  and writes back rows 1024 t … 1024 t + 1023 of a [4096,1024] array. With the body's stored value read at an
  index and the staged tables read at an index, entry (R, j) of that array is

      (sum over n of act n (hid R n) * (onehot[n, j/16] * ow[j%16, n])) + ob[j/16, j%16]

  and  a * (onehot * w)  is  a * w  when the id of n is the group j/16 and 0 otherwise, so the entry is
  G[R, j/16, j%16]. The four blocks tile the array (row R lies in the block of point R / 1024), and the host line
  after the call reshapes [4096,1024] to [4096,64,16]: entry (b, g, o) is the flat entry (b, 16 g + o), that is G[b,g,o].
-/
import proofs.«424883_j50242527429454_2_alg».proof.Proof.Gen.KernelIdeal.Frame
import proofs.«424883_j50242527429454_2_alg».proof.Proof.Spec
import proofs.«424883_j50242527429454_2_alg».proof.Proof.Body
import proofs.«424883_j50242527429454_2_alg».proof.Proof.Tables
import Idealize.ShloMosaic.Lib.Pipeline.Value
import Idealize.ShloMosaic.Lib.StableHlo.Run

set_option maxRecDepth 16384

noncomputable section

namespace Cert.KernelValue

open Idealize.ShloMosaic Idealize.ShloMosaic.TcCoe Idealize.ShloMosaic.ValueIdx Idealize.SL.Sem
open Cert.KernelIdeal Cert.KernelIdeal.Gen Idealize.ShloMosaic.StableHlo
open scoped BigOperators

variable (m : (ℓ : Loc nD τ sig) → Buf (Elt Ideal) ℓ) (ρ : Dev nD → PrngReg)

/-! ## The arguments on a device, and the result laid out flat -/

abbrev ax (c : Dev nD) : FVec Ideal S4096x128 .f32 := m ((c : Thread nD τ).loc main_arg0)
abbrev ahw (c : Dev nD) : FVec Ideal S1024x128 .f32 := m ((c : Thread nD τ).loc main_arg1)
abbrev ahb (c : Dev nD) : FVec Ideal S1024 .f32 := m ((c : Thread nD τ).loc main_arg2)
abbrev aow (c : Dev nD) : FVec Ideal S16x1024 .f32 := m ((c : Thread nD τ).loc main_arg3)
abbrev aob (c : Dev nD) : FVec Ideal S64x16 .f32 := m ((c : Thread nD τ).loc main_arg4)
abbrev aids (c : Dev nD) : IVec S1024 32 := m ((c : Thread nD τ).loc main_arg5)

/-- The result of the arguments on device c. -/
abbrev Gc (c : Dev nD) : FVec Ideal S4096x64x16 .f32 :=
  Spec.G (ax m c) (ahw m c) (ahb m c) (aow m c) (aob m c) (aids m c)

/-- The same laid out [4096,1024]: column j is group j / 16, feature j % 16. -/
def Gflat (c : Dev nD) : S4096x1024.Idx → EReal := fun i =>
  Gc m c (ix3 (i 0) ⟨(i 1).val / 16, by have h : (i 1).val < 1024 := (i 1).isLt; omega⟩ ⟨(i 1).val % 16, Nat.mod_lt _ (by omega)⟩)

/-- One term of the sum: the activation against the one-hot entry times the weight is the activation against the
    weight when the id is the group, and nothing otherwise. -/
theorem term_eq (w : BitVec 32) (g : ℕ) (hg : g < 64) (a y : EReal) :
    a * ((((IntOp.cmpi .eq w (BitVec.ofNat 32 g)).toNat : ℝ) : EReal) * y) = if w.toInt = (g : ℤ) then a * y else 0 := by
  rw [Spec.onehot_mul w g hg y, mul_ite, mul_zero]

/-! ## Each window's block at a point, read at an index -/

theorem hz : (![0, 0] : Fin 2 → Nat) = fun _ => 0 := funext fun a => by fin_cases a <;> rfl

/-- The printed index maps over the four points: x and the result move by whole blocks of rows with the point,
    every other window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 4 := by
  have h : t.val < grid0.N := t.isLt
  have := N_0
  omega

/-- The five input blocks at a point, at their literal types. -/
abbrev bx (c : Dev nD) (t : Fin cfg0.N) : FVec Ideal S1024x128 .f32 := iblk m c 0 t
abbrev bhw (c : Dev nD) (t : Fin cfg0.N) : FVec Ideal S1024x128 .bf16 := iblk m c 1 t
abbrev bhb (c : Dev nD) (t : Fin cfg0.N) : FVec Ideal S1x1024 .f32 := iblk m c 2 t
abbrev bwbd (c : Dev nD) (t : Fin cfg0.N) : FVec Ideal S1024x1024 .bf16 := iblk m c 3 t
abbrev bob (c : Dev nD) (t : Fin cfg0.N) : FVec Ideal S1x1024 .f32 := iblk m c 4 t

/-- Row r of x's block at point t is row 1024 t + r of x. -/
theorem blk_x (c : Dev nD) (t : Fin cfg0.N) (r : Fin 1024) (k : Fin 128) :
    bx m c t (ix2 r k)
      = ax m c (ix2 ⟨t.val * 1024 + r.val, by have := t_lt t; have := r.isLt; omega⟩ k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 1024 + 1 * r.val = t.val * 1024 + r.val; omega
  | ⟨1, _⟩ => show win0_0.index t (1 : Fin 2) * 128 + 1 * k.val = k.val; omega

/-- The hidden weights' block is the whole table. -/
theorem blk_hw (c : Dev nD) (t : Fin cfg0.N) (n : Fin 1024) (k : Fin 128) :
    bhw m c t (ix2 n k) = ahw m c (ix2 n k) := by
  obtain ⟨-, -, e0, e1, -⟩ := idx_facts t
  show V m c main_v8 (((cfg0.win 1).blk t).view.emb (ix2 n k)) = _
  have e : ((cfg0.win 1).blk t).view.emb (ix2 n k) = ix2 n k := funext fun a => Fin.ext (by
    match a with
    | ⟨0, _⟩ => show win0_1.index t (0 : Fin 2) * 1024 + 1 * n.val = n.val; omega
    | ⟨1, _⟩ => show win0_1.index t (1 : Fin 2) * 128 + 1 * k.val = k.val; omega)
  rw [e, KernelTables.V_hw]
  rfl

/-- The hidden bias row's block is the whole row. -/
theorem blk_hb (c : Dev nD) (t : Fin cfg0.N) (n : Fin 1024) :
    bhb m c t (ix2 (0 : Fin 1) n) = ahb m c (ix1 n) := by
  obtain ⟨-, -, -, -, e0, e1, -⟩ := idx_facts t
  show V m c main_v10 (((cfg0.win 2).blk t).view.emb (ix2 (0 : Fin 1) n)) = _
  have e : ((cfg0.win 2).blk t).view.emb (ix2 (0 : Fin 1) n) = ix2 (0 : Fin 1) n := funext fun a => Fin.ext (by
    match a with
    | ⟨0, _⟩ => show win0_2.index t (0 : Fin 2) * 1 + 1 * 0 = 0; omega
    | ⟨1, _⟩ => show win0_2.index t (1 : Fin 2) * 1024 + 1 * n.val = n.val; omega)
  rw [e, KernelTables.V_hb, KernelTables.row_hb]

/-- The block-diagonal table's block is the whole table. -/
theorem blk_wbd (c : Dev nD) (t : Fin cfg0.N) (n j : Fin 1024) :
    bwbd m c t (ix2 n j)
      = (((IntOp.cmpi .eq (aids m c (ix1 n)) (BitVec.ofNat 32 (j.val / 16))).toNat : ℝ) : EReal)
        * aow m c (ix2 ⟨j.val % 16, Nat.mod_lt _ (by omega)⟩ n) := by
  obtain ⟨-, -, -, -, -, -, e0, e1, -⟩ := idx_facts t
  show V m c main_v9 (((cfg0.win 3).blk t).view.emb (ix2 n j)) = _
  have e : ((cfg0.win 3).blk t).view.emb (ix2 n j) = ix2 n j := funext fun a => Fin.ext (by
    match a with
    | ⟨0, _⟩ => show win0_3.index t (0 : Fin 2) * 1024 + 1 * n.val = n.val; omega
    | ⟨1, _⟩ => show win0_3.index t (1 : Fin 2) * 1024 + 1 * j.val = j.val; omega)
  rw [e, KernelTables.V_wbd]
  exact KernelTables.wbd_apply _ _ n j

/-- The output bias row's block is the whole row. -/
theorem blk_ob (c : Dev nD) (t : Fin cfg0.N) (j : Fin 1024) :
    bob m c t (ix2 (0 : Fin 1) j)
      = aob m c (ix2 ⟨j.val / 16, by have := j.isLt; omega⟩ ⟨j.val % 16, Nat.mod_lt _ (by omega)⟩) := by
  obtain ⟨-, -, -, -, -, -, -, -, e0, e1, -⟩ := idx_facts t
  show V m c main_v11 (((cfg0.win 4).blk t).view.emb (ix2 (0 : Fin 1) j)) = _
  have e : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 1024 + 1 * j.val = j.val; omega)
  rw [e, KernelTables.V_ob, KernelTables.row_ob]

/-! ## What a point writes back -/

/-- The body's stored value at point t, entry (r, j), is the flat result at row 1024 t + r, column j. -/
theorem stored_eq (c : Dev nD) (t : Fin cfg0.N) (r j : Fin 1024) :
    k0_pay1 (F := Ideal) (bx m c t) (bhw m c t) (bhb m c t) (bwbd m c t) (bob m c t) (ix2 r j)
      = Gflat m c (ix2 ⟨t.val * 1024 + r.val, by have := t_lt t; have := r.isLt; omega⟩ j) := by
  refine (KernelBody.pay_apply (bx m c t) (bhw m c t) (bhb m c t) (bwbd m c t) (bob m c t) r j).trans ?_
  have hg : j.val / 16 < 64 := by have := j.isLt; omega
  have hterm : ∀ n : Fin 1024,
      Spec.act n.val ((∑ k : Fin 128, bx m c t (ix2 r k) * bhw m c t (ix2 n k)) + bhb m c t (ix2 (0 : Fin 1) n)) * bwbd m c t (ix2 n j)
        = if (aids m c (ix1 n)).toInt = ((j.val / 16 : ℕ) : ℤ) then
            Spec.hact (ax m c) (ahw m c) (ahb m c) ⟨t.val * 1024 + r.val, by have := t_lt t; have := r.isLt; omega⟩ n
              * aow m c (ix2 ⟨j.val % 16, Nat.mod_lt _ (by omega)⟩ n)
          else 0 := by
    intro n
    rw [blk_wbd, blk_hb, term_eq _ _ hg]
    refine if_congr Iff.rfl ?_ rfl
    unfold Spec.hact Spec.hid
    simp only [blk_x, blk_hw]
  rw [blk_ob, Finset.sum_congr rfl fun n _ => hterm n]
  rfl

/-- WHAT POINT t WRITES BACK is block t of the flat result. -/
theorem flushed_eq (c : Dev nD) (t : Fin cfg0.N) :
    (dats m 0 c).flushed 5 t = ((cfg0.win 5).blk t).view.read (Elt Ideal) (Gflat m c) := by
  show (cfg0.win 5).cut (grid0.coords t) ((dats m 0 c).after 5 t) = _
  rw [after0_5]
  unfold out0_5
  rw [View.canon_unit_zero hz]
  simp only [View.ld_unit_zero (S := S1024x128) hz, View.ld_unit_zero (S := S1x1024) hz, View.ld_unit_zero (S := S1024x1024) hz]
  obtain ⟨-, -, -, -, -, -, -, -, -, -, e0, e1⟩ := idx_facts t
  funext y
  have hy : (y : S1024x1024.Idx) = ix2 (n0 := 1024) (n1 := 1024) (y 0) (y 1) := eq_ix2 (n0 := 1024) (n1 := 1024) y
  show k0_pay1 (F := Ideal) (bx m c t) (bhw m c t) (bhb m c t) (bwbd m c t) (bob m c t) y
    = Gflat m c (((cfg0.win 5).blk t).view.emb y)
  refine (congrArg (k0_pay1 (F := Ideal) (bx m c t) (bhw m c t) (bhb m c t) (bwbd m c t) (bob m c t)) hy).trans ?_
  refine (stored_eq m c t (y 0) (y 1)).trans ?_
  refine congrArg (Gflat m c) (funext fun a => Fin.ext ?_)
  match a with
  | ⟨0, _⟩ => show t.val * 1024 + (y 0).val = win0_5.index t (0 : Fin 2) * 1024 + 1 * (y 0).val; omega
  | ⟨1, _⟩ => show (y 1).val = win0_5.index t (1 : Fin 2) * 1024 + 1 * (y 1).val; omega

/-! ## The blocks tile the array -/

/-- An index of the array is in point t's block iff each coordinate is in the block's range on its axis. -/
theorem mem_blk (t : Fin cfg0.N) (i : S4096x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v12).slice (win0_5.rect t)).set ↔ _
  rw [View.set_slice_whole, Rect.mem_set_unit]
  exact Iff.rfl

/-- Row R lies in the block of point R / 1024. -/
theorem cover (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN := N_0
  have ht : (i 0).val / 1024 < grid0.N := by omega
  obtain ⟨-, -, -, -, -, -, -, -, -, -, e0, e1⟩ := idx_facts ⟨(i 0).val / 1024, ht⟩
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    have e0' : win0_5.index ⟨(i 0).val / 1024, ht⟩ (0 : Fin 2) = (i 0).val / 1024 := e0
    omega
  | ⟨1, _⟩ =>
    show win0_5.index ⟨(i 0).val / 1024, ht⟩ (1 : Fin 2) * 1024 ≤ (i 1).val
      ∧ (i 1).val < win0_5.index ⟨(i 0).val / 1024, ht⟩ (1 : Fin 2) * 1024 + 1024
    omega

/-- THE ARRAY after the four points is the flat result. -/
theorem final (c : Dev nD) : (dats m 0 c).arrAt 5 cfg0.N = Gflat m c :=
  (dats m 0 c).arrAt_eq_of_cover 5 (Gflat m c) (fun t _ => flushed_eq m c t) cover

/-! ## The reshape after the call -/

theorem result_eq (c : Dev nD) :
    (Pipeline.afterTail₀ cfgs (dats m) 0 (V0 m) [hostOps1] c main_v13 : S4096x64x16.Idx → EReal) = Gc m c := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = Gflat m c :=
    (Pipeline.withArrays_arr spec0 launch0.win.arr_inj c _ _ 5).trans (final m c)
  funext i
  obtain ⟨b, g, o, rfl⟩ : ∃ (b : Fin 4096) (g : Fin 64) (o : Fin 16), i = ix3 b g o := ⟨i 0, i 1, i 2, eq_ix3 i⟩
  show shapeCast S4096x64x16
      (Pipeline.withArrays (cfgs 0).spec c (V0 m c) (fun w => (dats m 0 c).arrAt w (cfgs 0).N) (Proc.devRef .tc main_v12))
      shapeCasts_S4096x1024_S4096x64x16 (ix3 b g o) = _
  rw [hw]
  have hj : g.val * 16 + o.val < 1024 := by have := g.isLt; have := o.isLt; omega
  rw [shapeCast_apply _ shapeCasts_S4096x1024_S4096x64x16 (ix3 b g o) (ix2 b ⟨g.val * 16 + o.val, hj⟩) (by
    rw [Shape.rowMajor_val_two, Shape.rowMajor_val_three]
    show b.val * 1024 + (g.val * 16 + o.val) = (b.val * 64 + g.val) * 16 + o.val
    omega)]
  unfold Gflat
  refine congrArg (Gc m c) (funext fun a => Fin.ext ?_)
  match a with
  | ⟨0, _⟩ => rfl
  | ⟨1, _⟩ => show (g.val * 16 + o.val) / 16 = g.val; have := o.isLt; omega
  | ⟨2, _⟩ => show (g.val * 16 + o.val) % 16 = o.val; have := o.isLt; omega

/-! ## The kernel's run, read -/

/-- Every weakly fair execution of the kernel's @main terminates with the result buffer at `G` of the arguments and
    the arguments unchanged: the frame run, its post read at the result (the reshape after the call) and at the
    six arguments (the staged one through its window, the others as buffers no window stages). -/
theorem run : θ_run defs (onTc (τ := τ) (main (F := Ideal))) ⟨m, fun _ => 0, ρ⟩ (fun r => ∀ c : Dev nD,
      r.2.mem ((c.tc : Thread nD τ).loc main_v13) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelValue

end
-- ==== Proof.LibScatterSlabs.lean ====
/-
  The host's accumulating scatter over the extended reals, read at an index, for the layout a segment sum over the
  LEADING axis of a rank-3 array prints as: an N x B x C array of sums fed by E slabs of B x C entries, the scatter
  indices an E x 1 column naming, per slab, the operand's position on axis 0. A slab lands at the position its
  index names, read signed; an index outside [0, N) drops its slab. Entry (r, b, c) of the result is the operand's
  entry plus the sum, over the slabs whose index is r, of their entry (b, c).
-/
import Idealize.ShloMosaic.PureOps.Ideal
import Idealize.ShloMosaic.PureOps.Contract
import Idealize.ShloMosaic.Lib.ValueIdx

set_option maxRecDepth 16384

noncomputable section

namespace Cert.LibScatterSlabs

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-3 index set is the product of its three coordinate ranges … -/
private def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The layout's dimension numbers as a literal record, over any proof that they are well formed. -/
private abbrev lit {N B C E : ℕ} (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  ⟨[1, 2], [0], [0], 1, wf⟩

section Slabs
variable {N B C E w : ℕ} (wf : ScatterDims.WF ⟨3, ![N, B, C]⟩ ⟨2, ![E, 1]⟩ ⟨3, ![E, B, C]⟩ [1, 2] [0] [0] 1)

/-- Every entry of slab e reads row e of the column of indices. -/
private theorem siIdx_S (j : (⟨3, ![E, B, C]⟩ : Shape).Idx) (c : Fin (lit wf).scatterDimsToOperandDims.length) :
    (lit wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's axes that are not inserted are axes 1 and 2. -/
private theorem sKept_S : (lit wf).sKept = [1, 2] := rfl

/-- On axis 0 the window starts at the index word, read signed. -/
private theorem start_S0 (j : (⟨3, ![E, B, C]⟩ : Shape).Idx) (idx : IVec ⟨2, ![E, 1]⟩ w) :
    (lit wf).start j idx 0 = (idx (ix2 (j 0) (0 : Fin 1))).toInt := by
  unfold ScatterDims.start
  rw [dif_pos (show (0 : Fin (⟨3, ![N, B, C]⟩ : Shape).rank) ∈ (lit wf).scatterDimsToOperandDims from List.mem_singleton.mpr rfl)]
  rw [siIdx_S]
  rfl

/-- Axes 1 and 2 are named by no index: their windows start at 0. -/
private theorem start_S1 (j : (⟨3, ![E, B, C]⟩ : Shape).Idx) (idx : IVec ⟨2, ![E, 1]⟩ w) :
    (lit wf).start j idx 1 = 0 := by
  unfold ScatterDims.start
  rw [dif_neg (show ¬(1 : Fin (⟨3, ![N, B, C]⟩ : Shape).rank) ∈ (lit wf).scatterDimsToOperandDims by
    rw [List.mem_singleton]; intro e; exact Nat.one_ne_zero (congrArg Fin.val e))]
private theorem start_S2 (j : (⟨3, ![E, B, C]⟩ : Shape).Idx) (idx : IVec ⟨2, ![E, 1]⟩ w) :
    (lit wf).start j idx 2 = 0 := by
  unfold ScatterDims.start
  rw [dif_neg (show ¬(2 : Fin (⟨3, ![N, B, C]⟩ : Shape).rank) ∈ (lit wf).scatterDimsToOperandDims by
    rw [List.mem_singleton]; intro e; exact Nat.succ_ne_zero 1 (congrArg Fin.val e))]

/-- Axis 0 is inserted: no window coordinate. -/
private theorem window_S0 (j : (⟨3, ![E, B, C]⟩ : Shape).Idx) : (lit wf).window j 0 = 0 := by
  unfold ScatterDims.window
  rw [dif_neg (show ¬(0 : Fin (⟨3, ![N, B, C]⟩ : Shape).rank) ∈ (lit wf).sKept by
    rw [sKept_S, List.mem_cons, List.mem_singleton]
    rintro (e | e)
    · exact Nat.zero_ne_one (congrArg Fin.val e)
    · exact (Nat.succ_ne_zero 1).symm (congrArg Fin.val e))]

/-- Axes 1 and 2 are the window axes: their window coordinates are the slab entry's own. -/
private theorem window_S1 (j : (⟨3, ![E, B, C]⟩ : Shape).Idx) : (lit wf).window j 1 = (j 1).val := by
  unfold ScatterDims.window
  rw [dif_pos (show (1 : Fin (⟨3, ![N, B, C]⟩ : Shape).rank) ∈ (lit wf).sKept by
    rw [sKept_S]; exact List.mem_cons.mpr (Or.inl rfl))]
  rfl
private theorem window_S2 (j : (⟨3, ![E, B, C]⟩ : Shape).Idx) : (lit wf).window j 2 = (j 2).val := by
  unfold ScatterDims.window
  rw [dif_pos (show (2 : Fin (⟨3, ![N, B, C]⟩ : Shape).rank) ∈ (lit wf).sKept by
    rw [sKept_S]; exact List.mem_cons.mpr (Or.inr (List.mem_singleton.mpr rfl)))]
  rfl

/-- Slab entry (e, b', c') lands at (r, b, c) exactly when e's index word, read signed, is r, b' is b and c' is c. -/
private theorem lands_S (j : (⟨3, ![E, B, C]⟩ : Shape).Idx) (idx : IVec ⟨2, ![E, 1]⟩ w) (r : Fin N) (b : Fin B) (c : Fin C) :
    (lit wf).resultIdx? j idx = some (ix3 r b c)
      ↔ (idx (ix2 (j 0) (0 : Fin 1))).toInt = (r.val : ℤ) ∧ (j 1).val = b.val ∧ (j 2).val = c.val := by
  rw [resultIdx?_eq_some_iff]
  constructor
  · intro h
    have h0 := h 0
    have h1 := h 1
    have h2 := h 2
    rw [start_S0, window_S0] at h0
    rw [start_S1, window_S1] at h1
    rw [start_S2, window_S2] at h2
    simp only [Nat.cast_zero, add_zero] at h0
    have h1' : ((j 1).val : ℤ) = (b.val : ℤ) := by
      simp only [zero_add] at h1
      exact h1
    have h2' : ((j 2).val : ℤ) = (c.val : ℤ) := by
      simp only [zero_add] at h2
      exact h2
    exact ⟨h0, by exact_mod_cast h1', by exact_mod_cast h2'⟩
  · intro h a
    match a with
    | ⟨0, _⟩ =>
      have e1 := start_S0 wf j idx
      have e2 := window_S0 wf j
      show (lit wf).start j idx 0 + (((lit wf).window j 0 : ℕ) : ℤ) = (r.val : ℤ)
      rw [e1, e2, h.1]
      simp
    | ⟨1, _⟩ =>
      have e1 := start_S1 wf j idx
      have e2 := window_S1 wf j
      show (lit wf).start j idx 1 + (((lit wf).window j 1 : ℕ) : ℤ) = (b.val : ℤ)
      rw [e1, e2, h.2.1]
      simp
    | ⟨2, _⟩ =>
      have e1 := start_S2 wf j idx
      have e2 := window_S2 wf j
      show (lit wf).start j idx 2 + (((lit wf).window j 2 : ℕ) : ℤ) = (c.val : ℤ)
      rw [e1, e2, h.2.2]
      simp

end Slabs

/-- AN ARRAY OF SLAB SUMS. Operand [N, B, C], scatter indices [E, 1], updates [E, B, C]; the updates' axes 1 and 2
    are the window axes, the operand's axis 0 is inserted and named by the index vector's one component. Entry
    (r, b, c) is the operand's entry plus the sum, over the slabs whose index is r, of their entry (b, c). -/
theorem scatterAdd_slabs_apply {N B C E w : ℕ} (d : ScatterDims ⟨3, ![N, B, C]⟩ ⟨2, ![E, 1]⟩ ⟨3, ![E, B, C]⟩)
    (huw : d.updateWindowDims = [1, 2]) (hiw : d.insertedWindowDims = [0]) (hsd : d.scatterDimsToOperandDims = [0])
    (hiv : d.indexVectorDim = 1)
    (x : FVec Ideal ⟨3, ![N, B, C]⟩ .f32) (idx : IVec ⟨2, ![E, 1]⟩ w) (upd : FVec Ideal ⟨3, ![E, B, C]⟩ .f32)
    (r : Fin N) (b : Fin B) (c : Fin C) :
    Host.scatterAdd (F := Ideal) d x idx upd (ix3 r b c)
      = x (ix3 r b c) + ∑ e : Fin E, if (idx (ix2 e (0 : Fin 1))).toInt = (r.val : ℤ) then upd (ix3 e b c) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx3]
  refine Finset.sum_congr rfl fun e _ => ?_
  by_cases he : (idx (ix2 e (0 : Fin 1))).toInt = (r.val : ℤ)
  · rw [if_pos he, Finset.sum_eq_single b]
    · rw [Finset.sum_eq_single c]
      · exact if_pos ((lands_S wf (ix3 e b c) idx r b c).mpr ⟨he, rfl, rfl⟩)
      · intro c' _ hc'
        exact if_neg fun h => hc' (Fin.ext ((lands_S wf (ix3 e b c') idx r b c).mp h).2.2)
      · intro h
        exact absurd (Finset.mem_univ c) h
    · intro b' _ hb'
      refine Finset.sum_eq_zero fun c' _ => ?_
      exact if_neg fun h => hb' (Fin.ext ((lands_S wf (ix3 e b' c') idx r b c).mp h).2.1)
    · intro h
      exact absurd (Finset.mem_univ b) h
  · rw [if_neg he]
    refine Finset.sum_eq_zero fun b' _ => Finset.sum_eq_zero fun c' _ => ?_
    exact if_neg fun h => he ((lands_S wf (ix3 e b' c') idx r b c).mp h).1

end Cert.LibScatterSlabs

end
-- ==== Proof.RefValue.lean ====
/-
  The reference's result is `Spec.G` of the arguments.

  The reference forms the pre-activations hid b n = (sum over k of x[b,k] * hw[n,k]) + hb[n] as one contraction
  plus a broadcast bias, activates the four quarters of the hidden axis separately and joins them again along that
  axis — entry (b, n) of the joined array is act n (hid b n), read off the quarter n falls in —, multiplies with
  the transposed output weights into a [4096,1024,16] array, moves the hidden axis to the front, and sums the 1024
  slabs [4096,16] into 64 groups by a scatter that adds into zeros: entry (g, b, o) is the sum over the hidden units
  whose id word, read signed, is g of act n (hid b n) * ow[o,n]. The group axis moves back to the middle and the
  output bias is added.
-/
import proofs.«424883_j50242527429454_2_alg».proof.Proof.Gen.ReferenceIdeal.Read
import proofs.«424883_j50242527429454_2_alg».proof.Proof.Spec
import proofs.«424883_j50242527429454_2_alg».proof.Proof.LibScatterSlabs
import Idealize.ShloMosaic.Lib.Pipeline.Value

set_option maxRecDepth 16384

noncomputable section

namespace Cert.RefValue

open Idealize.ShloMosaic Idealize.ShloMosaic.ValueIdx
open Cert.ReferenceIdeal Cert.ReferenceIdeal.Gen Cert.ReferenceIdeal.Read
open scoped BigOperators

variable (x0 : FVec Ideal S4096x128 .f32) (x1 : FVec Ideal S1024x128 .f32) (x2 : FVec Ideal S1024 .f32)
  (x3 : FVec Ideal S16x1024 .f32) (x4 : FVec Ideal S64x16 .f32) (x5 : IVec S1024 32)

/-! ## The pre-activations -/

theorem hid_eq (b : Fin 4096) (n : Fin 1024) :
    val_main_v4 (F := Ideal) x0 x1 x2 (ix2 b n) = Spec.hid x0 x1 x2 b n := by
  have e1 : ∀ k : Fin 128, lidx_main_v1 (ix2 b n) k = ix2 b k := fun k => funext fun a => by
    match a with
    | ⟨0, _⟩ => rfl
    | ⟨1, _⟩ => rfl
  have e2 : ∀ k : Fin 128, idx_main_v0 (ridx_main_v1 (ix2 b n) k) = ix2 n k := fun k => funext fun a => by
    match a with
    | ⟨0, _⟩ => rfl
    | ⟨1, _⟩ => rfl
  have e3 : idx_main_v2 (idx_main_v3 (ix2 b n)) = ix1 n := funext fun a => by
    match a with
    | ⟨0, _⟩ => rfl
  rw [val_main_v4_apply, val_main_v1_apply, val_main_v3_apply, val_main_v2_apply, e3]
  unfold Spec.hid
  simp only [val_main_v0_apply, e1, e2]
  rfl

/-! ## The four activated quarters, joined -/

/-- Four [4096,256] pieces joined along axis 1, read in piece q at column k. -/
theorem cat0 (p0 p1 p2 p3 : S4096x256.Idx → EReal)
    (h : Shape.Concatenates (([⟨S4096x256, p0⟩, ⟨S4096x256, p1⟩, ⟨S4096x256, p2⟩, ⟨S4096x256, p3⟩] :
      List ((s : Shape) × (s.Idx → EReal))).map (·.1)) S4096x1024 1) (b : Fin 4096) (k : Fin 256) :
    concatenate S4096x1024 1 [⟨S4096x256, p0⟩, ⟨S4096x256, p1⟩, ⟨S4096x256, p2⟩, ⟨S4096x256, p3⟩] h
      (ix2 b ⟨k.val, by have := k.isLt; omega⟩) = p0 (ix2 b k) :=
  concatenate_apply_piece 1 _ h _ 0 (by show (0 : ℕ) < 4; omega) S4096x256 p0 rfl rfl 0 rfl (ix2 b k)
    (fun a ha => match a with
      | ⟨0, _⟩ => rfl
      | ⟨1, _⟩ => absurd rfl ha)
    (by show 0 + k.val = k.val; omega)
theorem cat1 (p0 p1 p2 p3 : S4096x256.Idx → EReal)
    (h : Shape.Concatenates (([⟨S4096x256, p0⟩, ⟨S4096x256, p1⟩, ⟨S4096x256, p2⟩, ⟨S4096x256, p3⟩] :
      List ((s : Shape) × (s.Idx → EReal))).map (·.1)) S4096x1024 1) (b : Fin 4096) (k : Fin 256) :
    concatenate S4096x1024 1 [⟨S4096x256, p0⟩, ⟨S4096x256, p1⟩, ⟨S4096x256, p2⟩, ⟨S4096x256, p3⟩] h
      (ix2 b ⟨256 + k.val, by have := k.isLt; omega⟩) = p1 (ix2 b k) :=
  concatenate_apply_piece 1 _ h _ 1 (by show (1 : ℕ) < 4; omega) S4096x256 p1 rfl rfl 256 rfl (ix2 b k)
    (fun a ha => match a with
      | ⟨0, _⟩ => rfl
      | ⟨1, _⟩ => absurd rfl ha)
    rfl
theorem cat2 (p0 p1 p2 p3 : S4096x256.Idx → EReal)
    (h : Shape.Concatenates (([⟨S4096x256, p0⟩, ⟨S4096x256, p1⟩, ⟨S4096x256, p2⟩, ⟨S4096x256, p3⟩] :
      List ((s : Shape) × (s.Idx → EReal))).map (·.1)) S4096x1024 1) (b : Fin 4096) (k : Fin 256) :
    concatenate S4096x1024 1 [⟨S4096x256, p0⟩, ⟨S4096x256, p1⟩, ⟨S4096x256, p2⟩, ⟨S4096x256, p3⟩] h
      (ix2 b ⟨512 + k.val, by have := k.isLt; omega⟩) = p2 (ix2 b k) :=
  concatenate_apply_piece 1 _ h _ 2 (by show (2 : ℕ) < 4; omega) S4096x256 p2 rfl rfl 512 rfl (ix2 b k)
    (fun a ha => match a with
      | ⟨0, _⟩ => rfl
      | ⟨1, _⟩ => absurd rfl ha)
    rfl
theorem cat3 (p0 p1 p2 p3 : S4096x256.Idx → EReal)
    (h : Shape.Concatenates (([⟨S4096x256, p0⟩, ⟨S4096x256, p1⟩, ⟨S4096x256, p2⟩, ⟨S4096x256, p3⟩] :
      List ((s : Shape) × (s.Idx → EReal))).map (·.1)) S4096x1024 1) (b : Fin 4096) (k : Fin 256) :
    concatenate S4096x1024 1 [⟨S4096x256, p0⟩, ⟨S4096x256, p1⟩, ⟨S4096x256, p2⟩, ⟨S4096x256, p3⟩] h
      (ix2 b ⟨768 + k.val, by have := k.isLt; omega⟩) = p3 (ix2 b k) :=
  concatenate_apply_piece 1 _ h _ 3 (by show (3 : ℕ) < 4; omega) S4096x256 p3 rfl rfl 768 rfl (ix2 b k)
    (fun a ha => match a with
      | ⟨0, _⟩ => rfl
      | ⟨1, _⟩ => absurd rfl ha)
    rfl

/-- The slices' source indices. -/
theorem s5 (b : Fin 4096) (k : Fin 256) : idx_main_v5 (ix2 b k) = ix2 b ⟨k.val, by have := k.isLt; omega⟩ :=
  funext fun a => by
    match a with
    | ⟨0, _⟩ => rfl
    | ⟨1, _⟩ => rfl
theorem s6 (b : Fin 4096) (k : Fin 256) : idx_main_v6 (ix2 b k) = ix2 b ⟨256 + k.val, by have := k.isLt; omega⟩ :=
  funext fun a => by
    match a with
    | ⟨0, _⟩ => rfl
    | ⟨1, _⟩ => rfl
theorem s7 (b : Fin 4096) (k : Fin 256) : idx_main_v7 (ix2 b k) = ix2 b ⟨512 + k.val, by have := k.isLt; omega⟩ :=
  funext fun a => by
    match a with
    | ⟨0, _⟩ => rfl
    | ⟨1, _⟩ => rfl
theorem s8 (b : Fin 4096) (k : Fin 256) : idx_main_v8 (ix2 b k) = ix2 b ⟨768 + k.val, by have := k.isLt; omega⟩ :=
  funext fun a => by
    match a with
    | ⟨0, _⟩ => rfl
    | ⟨1, _⟩ => rfl

/-- Quarter 0, the positive part. -/
theorem piece0 (b : Fin 4096) (k : Fin 256) :
    val_main_v9 (F := Ideal) x0 x1 x2 (ix2 b k)
      = Spec.hact x0 x1 x2 b ⟨k.val, by have := k.isLt; omega⟩ := by
  rw [val_main_v9_apply, val_main_v5_apply, s5, hid_eq, val_main_call0_v0_apply, val_main_call0_cst_apply]
  unfold Spec.hact
  rw [Spec.act_q0 k]
  show max _ (Ideal.ofBits .f32 0x00000000#32) = _
  rw [Ideal.ofBits_zero_f32]

/-- Quarter 1, the hyperbolic tangent. -/
theorem piece1 (b : Fin 4096) (k : Fin 256) :
    val_main_v10 (F := Ideal) x0 x1 x2 (ix2 b k)
      = Spec.hact x0 x1 x2 b ⟨256 + k.val, by have := k.isLt; omega⟩ := by
  rw [val_main_v10_apply, val_main_v6_apply, s6, hid_eq]
  unfold Spec.hact
  rw [Spec.act_q1 k]
  rfl

/-- Quarter 2, the logistic function spelt 1 / (1 + e^(-v)). -/
theorem piece2 (b : Fin 4096) (k : Fin 256) :
    val_main_v16 (F := Ideal) x0 x1 x2 (ix2 b k)
      = Spec.hact x0 x1 x2 b ⟨512 + k.val, by have := k.isLt; omega⟩ := by
  rw [val_main_v16_apply, val_main_v15_apply, val_main_cst_0_apply, val_main_v14_apply, val_main_v13_apply, val_main_cst_apply,
    val_main_v12_apply, val_main_v11_apply, val_main_v7_apply, s7, hid_eq]
  unfold Spec.hact
  rw [Spec.act_q2 k]
  show Ideal.div (Ideal.ofBits .f32 0x3F800000#32) (Ideal.ofBits .f32 0x3F800000#32 + Ideal.exp (-_)) = _
  rw [Spec.one_f32]
  rfl

/-- Quarter 3, as it is. -/
theorem piece3 (b : Fin 4096) (k : Fin 256) :
    val_main_v8 (F := Ideal) x0 x1 x2 (ix2 b k)
      = Spec.hact x0 x1 x2 b ⟨768 + k.val, by have := k.isLt; omega⟩ := by
  rw [val_main_v8_apply, s8, hid_eq]
  unfold Spec.hact
  rw [Spec.act_q3 k]

/-- Column bounds of the four quarters. -/
theorem lt0 (k : Fin 256) : k.val < 1024 := by have := k.isLt; omega
theorem lt1 (k : Fin 256) : 256 + k.val < 1024 := by have := k.isLt; omega
theorem lt2 (k : Fin 256) : 512 + k.val < 1024 := by have := k.isLt; omega
theorem lt3 (k : Fin 256) : 768 + k.val < 1024 := by have := k.isLt; omega

/-- The joined array at (b, n) is the activated hidden layer. -/
theorem hact_eq (b : Fin 4096) (n : Fin 1024) :
    val_main_v17 (F := Ideal) x0 x1 x2 (ix2 b n) = Spec.hact x0 x1 x2 b n := by
  unfold val_main_v17
  by_cases h0 : n.val < 256
  · obtain ⟨k, rfl⟩ : ∃ k : Fin 256, n = ⟨k.val, lt0 k⟩ := ⟨⟨n.val, h0⟩, rfl⟩
    rw [cat0, piece0]
  · by_cases h1 : n.val < 512
    · obtain ⟨k, rfl⟩ : ∃ k : Fin 256, n = ⟨256 + k.val, lt1 k⟩ :=
        ⟨⟨n.val - 256, by omega⟩, Fin.ext (by show n.val = 256 + (n.val - 256); omega)⟩
      rw [cat1, piece1]
    · by_cases h2 : n.val < 768
      · obtain ⟨k, rfl⟩ : ∃ k : Fin 256, n = ⟨512 + k.val, lt2 k⟩ :=
          ⟨⟨n.val - 512, by omega⟩, Fin.ext (by show n.val = 512 + (n.val - 512); omega)⟩
        rw [cat2, piece2]
      · obtain ⟨k, rfl⟩ : ∃ k : Fin 256, n = ⟨768 + k.val, lt3 k⟩ :=
          ⟨⟨n.val - 768, by have := n.isLt; omega⟩, Fin.ext (by show n.val = 768 + (n.val - 768); omega)⟩
        rw [cat3, piece3]

/-! ## The products, the group sums, the bias -/

/-- The slab entry (n, b, o) the scatter sums: the activation of unit n in row b against the weight of unit n
    for feature o. -/
theorem slab_eq (n : Fin 1024) (b : Fin 4096) (o : Fin 16) :
    val_main_v24 (F := Ideal) x0 x1 x2 x3 (ix3 n b o) = Spec.hact x0 x1 x2 b n * x3 (ix2 o n) := by
  have e24 : idx_main_v24 (ix3 n b o) = ix3 b n o := funext fun a => by
    match a with
    | ⟨0, _⟩ => rfl
    | ⟨1, _⟩ => rfl
    | ⟨2, _⟩ => rfl
  have e18 : idx_main_v18 (idx_main_v21 (ix3 b n o)) = ix2 b n := funext fun a => by
    match a with
    | ⟨0, _⟩ => rfl
    | ⟨1, _⟩ => rfl
  have e19 : idx_main_v19 (idx_main_v20 (idx_main_v22 (ix3 b n o))) = ix2 o n := funext fun a => by
    match a with
    | ⟨0, _⟩ => rfl
    | ⟨1, _⟩ => rfl
  rw [val_main_v24_apply, e24, val_main_v23_apply, val_main_v21_apply, val_main_v18_apply, e18, hact_eq,
    val_main_v22_apply, val_main_v20_apply, val_main_v19_apply, e19]
  rfl

/-- THE REFERENCE'S RESULT is `Spec.G` of its arguments. -/
theorem ref_eq : val_main_v31 (F := Ideal) x0 x1 x2 x3 x4 x5 = Spec.G x0 x1 x2 x3 x4 x5 := by
  funext i
  obtain ⟨b, g, o, rfl⟩ : ∃ (b : Fin 4096) (g : Fin 64) (o : Fin 16), i = ix3 b g o := ⟨i 0, i 1, i 2, eq_ix3 i⟩
  have e28 : idx_main_v28 (ix3 b g o) = ix3 g b o := funext fun a => by
    match a with
    | ⟨0, _⟩ => rfl
    | ⟨1, _⟩ => rfl
    | ⟨2, _⟩ => rfl
  have e29 : idx_main_v29 (idx_main_v30 (ix3 b g o)) = ix2 g o := funext fun a => by
    match a with
    | ⟨0, _⟩ => rfl
    | ⟨1, _⟩ => rfl
  have e26 : ∀ e : Fin 1024, idx_main_v26 (ix2 e (0 : Fin 1)) = ix1 e := fun e => funext fun a => by
    match a with
    | ⟨0, _⟩ => rfl
  rw [val_main_v31_apply, val_main_v28_apply, e28, val_main_v30_apply, val_main_v29_apply, e29]
  unfold val_main_v27
  rw [LibScatterSlabs.scatterAdd_slabs_apply _ rfl rfl rfl rfl _ _ _ g b o, val_main_v25_apply, val_main_cst_1_apply]
  show (Ideal.ofBits .f32 0x00000000#32 + _) + _ = _
  rw [Ideal.ofBits_zero_f32, zero_add]
  unfold Spec.G
  congr 1
  refine Finset.sum_congr rfl fun e _ => ?_
  rw [val_main_v26_apply, e26, slab_eq]

end Cert.RefValue

end
-- ==== Proof.lean ====
/-
  A bank of 64 small networks sharing one hidden layer, fused into two matrix products, against its plain
  reference: the two programs compute the same array over the extended reals, for every choice of the id words.

  Both form the hidden layer  hid[b,n] = (sum over k of x[b,k] * hw[n,k]) + hb[n]  for 4096 batch rows and 1024
  hidden units and activate its four quarters by the positive part, tanh, the logistic function and the identity.
  The reference multiplies every activation with its unit's 16 output weights and sums the units of each of the
  64 groups with a scatter that adds into zeros, a unit landing in the group its id word names when read signed and
  nowhere if that is outside [0, 64). The kernel builds a [1024,1024] table  wbd[n, 16 g + o] = 1[ids n = g] * ow[o,n]
  on the host (the indicator a word compare against 0 … 63 widened to 1.0 or 0.0), multiplies the activated
  quarters with the matching 256 rows of the table on four blocks of 1024 batch rows, adds the four products and
  the bias row, and reshapes [4096,1024] to [4096,64,16]. Entry by entry both are

      G[b,g,o] = (sum over the units n with id g of act n (hid[b,n]) * ow[o,n]) + ob[g,o]        (Proof/Spec.lean)

  since  a * (1 * w) = a * w,  a * (0 * w) = 0  and  0 + s = s  hold for all extended reals, sums over the hidden
  axis may be cut into quarters and regrouped freely, and a change of float format is the identity: the
  precondition's finiteness is never used. The kernel's side is Proof/Body.lean (what one block stores),
  Proof/Tables.lean (the staged tables) and Proof/KernelValue.lean (blocks to array, the reshape); the reference's
  side is Proof/RefValue.lean over the scatter read at an index (Proof/LibScatterSlabs.lean).
  The ideal pass rewrote nothing, so the kernel's idealization is its own text and `preserves` is `True`.
-/
import proofs.«424883_j50242527429454_2_alg».proof.Defs
import proofs.«424883_j50242527429454_2_alg».proof.Proof.Gen.Kernel
import proofs.«424883_j50242527429454_2_alg».proof.Proof.Gen.Kernel.Skeleton
import proofs.«424883_j50242527429454_2_alg».proof.Proof.Gen.Kernel.Launch
import proofs.«424883_j50242527429454_2_alg».proof.Proof.Gen.Kernel.Points
import proofs.«424883_j50242527429454_2_alg».proof.Proof.Gen.Kernel.Frame
import proofs.«424883_j50242527429454_2_alg».proof.Proof.Gen.KernelIdeal
import proofs.«424883_j50242527429454_2_alg».proof.Proof.Gen.KernelIdeal.Skeleton
import proofs.«424883_j50242527429454_2_alg».proof.Proof.Gen.KernelIdeal.Launch
import proofs.«424883_j50242527429454_2_alg».proof.Proof.Gen.KernelIdeal.Points
import proofs.«424883_j50242527429454_2_alg».proof.Proof.Gen.KernelIdeal.Frame
import proofs.«424883_j50242527429454_2_alg».proof.Proof.Gen.ReferenceIdeal
import proofs.«424883_j50242527429454_2_alg».proof.Proof.Gen.Pre_finite_inputs
import proofs.«424883_j50242527429454_2_alg».proof.Proof.Gen.ReferenceIdeal.Run
import proofs.«424883_j50242527429454_2_alg».proof.Proof.Gen.ReferenceIdeal.Read
import proofs.«424883_j50242527429454_2_alg».proof.Proof.KernelValue
import proofs.«424883_j50242527429454_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments both programs end with `Spec.G` of those arguments in their
    result buffers: the kernel by `KernelValue.run`, the reference by its run and `RefValue.ref_eq`. -/
theorem algebraic : Cert.algebraic_KernelIdeal_ReferenceIdeal := by
  intro m ρ m' ρ' _ hagree
  refine ⟨fun c => Cert.KernelValue.Gc m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine (Cert.ReferenceIdeal.Read.val_main_v31_eq (F := Ideal) _ _ _ _ _ _).trans ?_
  rw [Cert.RefValue.ref_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
